-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S10000x128 .f32) (main_arg1 : FVec F S10000x10000 .f32) (main_arg2 : FVec F S128x128 .f32) (main_arg3 : FVec F S128 .f32) (main_arg4 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 8
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x128, .f32⟩
  | .hbm, ⟨6, _⟩ => ⟨S1x1, .f32⟩
  | .hbm, ⟨7, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S1x1, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  shapeCasts_S_S1x1 : S_.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  h_S400x128 : 0 < S400x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .i1⟩
  | .hbm, ⟨14, _⟩ => ⟨S10000x128, .f32⟩
  | .hbm, ⟨15, _⟩ => ⟨S10000x128, .f32⟩
  | .hbm, ⟨16, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelPieces.lean ====
import proofs.«158387_g42597485642290_cont_8to1_b_1741_4_alg».proof.Proof.Gen.KernelIdeal.Frame
import Idealize.ShloMosaic.Lib.Pipeline.Value
import Idealize.ShloMosaic.Lib.Tactic

/-!
# What one run of the body leaves behind, as values of its input blocks

The body has two control cases. At the grid's first point it stores the transformed features into the scratch, reads
the scratch back, and stores the output block computed from what it read back. At every later point it stores
nothing into the scratch and computes the output block from what the scratch already held. Each store covers its
whole buffer, so what a buffer holds afterwards is the stored value itself, and each load reads a whole buffer, so a
loaded value is the buffer's contents.
-/

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every access of the body starts at the origin of its buffer. -/
theorem origin : (![0, 0] : Fin 2 → Nat) = fun _ => 0 := funext fun a => by fin_cases a <;> rfl

/-- At the first point the scratch ends holding the value computed from the `seq` block and the `W` block. -/
theorem scratch_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .bf16) (harg7 : arg7.IsWhole) (hc0 : cond0_0 i) (x0 : Vec F S10000x128 .f32) (x1 : Vec F S400x10000 .f32) (x2 : Vec F S128x128 .f32) (x3 : Vec F S1x128 .f32) (x4 : Vec F S1x1 .f32) :
    sout0_A_0 c i arg1 harg1 arg2 harg2 arg3 harg3 arg4 harg4 arg5 harg5 arg6 harg6 arg7 harg7 hc0 x0 x1 x2 x3 x4 = k0_pay1 x0 x2 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero origin]
  simp only [View.readAt_eq_ld, harg1.read_unread, harg3.read_unread, View.ld_unit_zero (S := S10000x128) origin,
    View.ld_unit_zero (S := S128x128) origin]

/-- At the first point the output block is computed from the adjacency block, the bias block, the slope block and
    the scratch as just stored. -/
theorem out_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .bf16) (harg7 : arg7.IsWhole) (hc0 : cond0_0 i) (x0 : Vec F S10000x128 .f32) (x1 : Vec F S400x10000 .f32) (x2 : Vec F S128x128 .f32) (x3 : Vec F S1x128 .f32) (x4 : Vec F S1x1 .f32) :
    out0_A_5 c i arg1 harg1 arg2 harg2 arg3 harg3 arg4 harg4 arg5 harg5 arg6 harg6 arg7 harg7 hc0 x0 x1 x2 x3 x4 = k0_pay2 x1 (k0_pay1 x0 x2) x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero origin]
  simp only [View.readAt_eq_ld, harg1.read_unread, harg2.read_unread, harg3.read_unread, harg4.read_unread,
    harg5.read_unread, View.ld_unit_zero (S := S10000x128) origin, View.ld_unit_zero (S := S128x128) origin,
    View.ld_unit_zero (S := S400x10000) origin, View.ld_unit_zero (S := S1x128) origin,
    View.ld_unit_zero (S := S1x1) origin, View.readCov_unit_zero (S := S10000x128) _ origin]

/-- At a later point the output block is computed from the same blocks and the scratch as the point before left it. -/
theorem out_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .bf16) (harg7 : arg7.IsWhole) (hc0 : ¬cond0_0 i) (x0 : Vec F S10000x128 .f32) (x1 : Vec F S400x10000 .f32) (x2 : Vec F S128x128 .f32) (x3 : Vec F S1x128 .f32) (x4 : Vec F S1x1 .f32) (xs0 : Vec F S10000x128 .bf16) :
    out0_B_5 c i arg1 harg1 arg2 harg2 arg3 harg3 arg4 harg4 arg5 harg5 arg6 harg6 arg7 harg7 hc0 x0 x1 x2 x3 x4 xs0 = k0_pay2 x1 xs0 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  rw [View.canon_unit_zero origin]
  simp only [View.readAt_eq_ld, harg2.read_unread, harg4.read_unread, harg5.read_unread, harg7.read_unread,
    View.ld_unit_zero (S := S10000x128) origin, View.ld_unit_zero (S := S400x10000) origin,
    View.ld_unit_zero (S := S1x128) origin, View.ld_unit_zero (S := S1x1) origin]

end Cert.KernelIdeal.Pieces

end
-- ==== Proof.GcnLayer.lean ====
import Idealize.ShloMosaic.PureOps.Ideal.Laws
import Idealize.ShloMosaic.Lib.ValueIdx

/-!
# One graph-convolution layer with a PReLU, on the extended reals

For node features `seq` [10000, 128], a dense adjacency `adj` [10000, 10000], a weight `W` [128, 128] stored
output-major, a bias row [128] and a scalar slope `a`:

* the transformed features are `(seq · Wᵀ)[r, q] = ∑ k, seq[r, k] · W[q, k]`;
* the aggregated row adds the bias: `s[p, q] = ∑ r, adj[p, r] · (seq · Wᵀ)[r, q] + bias[q]`;
* the activation keeps `s` where `s ≥ 0` and scales it by the slope elsewhere.

Both sums are written in the order in which each program forms them (features first, then the aggregation), so no
re-association and no finiteness of the entries is needed to compare the two programs with this function.
-/

noncomputable section

namespace Cert.GcnLayer

open Idealize.ShloMosaic Idealize.ShloMosaic.ValueIdx

/-- The transformed feature of node `r` on output channel `q`: row `r` of `seq` against row `q` of `W`. -/
def feat (seq : FVec Ideal (⟨2, ![10000, 128]⟩ : Shape) .f32) (W : FVec Ideal (⟨2, ![128, 128]⟩ : Shape) .f32)
    (r : Fin 10000) (q : Fin 128) : EReal :=
  ∑ k : Fin 128, seq (ix2 r k) * W (ix2 q k)

/-- The aggregated, biased entry `(p, q)`: row `p` of the adjacency against column `q` of the transformed features,
    plus the bias of channel `q`. -/
def agg (seq : FVec Ideal (⟨2, ![10000, 128]⟩ : Shape) .f32) (adj : FVec Ideal (⟨2, ![10000, 10000]⟩ : Shape) .f32)
    (W : FVec Ideal (⟨2, ![128, 128]⟩ : Shape) .f32) (bias : FVec Ideal (⟨1, ![128]⟩ : Shape) .f32)
    (p : Fin 10000) (q : Fin 128) : EReal :=
  (∑ r : Fin 10000, adj (ix2 p r) * feat seq W r q) + bias (ix1 q)

/-- The parametric rectifier with slope `a`: `s` where the ordered comparison `s ≥ 0` holds, `a · s` elsewhere. -/
def prelu (a s : EReal) : EReal :=
  Scalar.select (FloatOps.cmpf (F := Ideal) (φ := .f32) .oge s (FloatOps.ofBits (F := Ideal) .f32 0x00000000#32)) s (a * s)

/-- The layer's result array, entry by entry. -/
def layer (seq : FVec Ideal (⟨2, ![10000, 128]⟩ : Shape) .f32) (adj : FVec Ideal (⟨2, ![10000, 10000]⟩ : Shape) .f32)
    (W : FVec Ideal (⟨2, ![128, 128]⟩ : Shape) .f32) (bias : FVec Ideal (⟨1, ![128]⟩ : Shape) .f32)
    (a : FVec Ideal (⟨0, ![]⟩ : Shape) .f32) : FVec Ideal (⟨2, ![10000, 128]⟩ : Shape) .f32 :=
  fun i => prelu (a ix0) (agg seq adj W bias (i 0) (i 1))

theorem layer_apply (seq : FVec Ideal (⟨2, ![10000, 128]⟩ : Shape) .f32) (adj : FVec Ideal (⟨2, ![10000, 10000]⟩ : Shape) .f32)
    (W : FVec Ideal (⟨2, ![128, 128]⟩ : Shape) .f32) (bias : FVec Ideal (⟨1, ![128]⟩ : Shape) .f32)
    (a : FVec Ideal (⟨0, ![]⟩ : Shape) .f32) (p : Fin 10000) (q : Fin 128) :
    layer seq adj W bias a (ix2 p q) = prelu (a ix0) (agg seq adj W bias p q) := rfl

end Cert.GcnLayer

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibContractRhsT.lean ====
import Idealize.ShloMosaic.PureOps.Ideal.Laws
import Idealize.ShloMosaic.Lib.ValueIdx

/-!
# The contraction `[M, K] × [N, K]` read at an entry, on the extended reals

`DotDims.transposedRhs M K N` has the fields of every printed `…_1_1_0_0_n_n` record of rank-2 operands (contract the
left operand's axis 1 with the right operand's axis 1, no batch axes): the product `a · bᵀ`. Over it the host's
`dot_general` and a kernel's `tpu.matmul` into the zero splat are both, at entry `(p, q)`, the sum over `k` of
`a[p, k] · b[q, k]`.
-/

noncomputable section

namespace Cert.LibContractRhsT

open Idealize.ShloMosaic Idealize.ShloMosaic.ValueIdx

/-! ## The operand indices, axis by axis

At result index `j` and contraction index `c` the left operand is read at `(j 0, c)` and the right one at `(j 1, c)`:
a kept axis reads the result index at its place, the contracted axis reads the one coordinate of `c`. -/

/-- The left operand's row is the result's row. -/
theorem lhs_0 (M K N : Nat) (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction index's coordinate. -/
theorem lhs_1 (M K N : Nat) (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row is the result's column. -/
theorem rhs_0 (M K N : Nat) (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction index's coordinate. -/
theorem rhs_1 (M K N : Nat) (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- The sum over the one-axis contraction index, re-indexed by its coordinate `k : Fin K` and with both operand
    indices read off: `∑ k, a[p, k] · b[q, k]`. -/
theorem sum_eq (M K N : Nat) {φ₁ φ₂ : FTy} (a : FVec Ideal (⟨2, ![M, K]⟩ : Shape) φ₁)
    (b : FVec Ideal (⟨2, ![N, K]⟩ : Shape) φ₂) (p : Fin M) (q : Fin N) :
    (∑ c : (DotDims.transposedRhs M K N).contr.Idx,
        a ((DotDims.transposedRhs M K N).lhsIdx (ix2 p q) c) * b ((DotDims.transposedRhs M K N).rhsIdx (ix2 p q) c))
      = ∑ k : Fin K, a (ix2 p k) * b (ix2 q k) := by
  rw [← Equiv.sum_comp (ValueIdx.contrEquiv1 (DotDims.transposedRhs M K N) K rfl rfl).symm]
  refine Finset.sum_congr rfl fun k _ => ?_
  have hk := ValueIdx.contrEquiv1_symm_val (DotDims.transposedRhs M K N) K rfl rfl k
  have el : (DotDims.transposedRhs M K N).lhsIdx (ix2 p q) ((ValueIdx.contrEquiv1 (DotDims.transposedRhs M K N) K rfl rfl).symm k)
      = ix2 p k := funext fun x => Fin.ext (by
    match x with
    | ⟨0, _⟩ => exact lhs_0 M K N _ _
    | ⟨1, _⟩ => exact (lhs_1 M K N _ _).trans hk)
  have er : (DotDims.transposedRhs M K N).rhsIdx (ix2 p q) ((ValueIdx.contrEquiv1 (DotDims.transposedRhs M K N) K rfl rfl).symm k)
      = ix2 q k := funext fun x => Fin.ext (by
    match x with
    | ⟨0, _⟩ => exact rhs_0 M K N _ _
    | ⟨1, _⟩ => exact (rhs_1 M K N _ _).trans hk)
  rw [el, er]

/-! ## The contraction read at an entry -/

/-- The host's `dot_general` contracting both operands' last axes, at entry `(p, q)`: `∑ k, a[p, k] · b[q, k]`. -/
theorem dotGeneral_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    Host.dotGeneral (DotDims.transposedRhs M K N) prec a b (ix2 p q) = ∑ k : Fin K, a (ix2 p k) * b (ix2 q k) := by
  simp only [Host.dotGeneral]
  rw [Ideal.dotGeneral_apply]
  exact sum_eq M K N a b p q

/-- A kernel's `tpu.matmul` contracting both operands' last axes into the zero splat, at entry `(p, q)`: the same sum. -/
theorem matmul_zero_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    matmul (DotDims.transposedRhs M K N) prec a b (constant (F := Ideal) (⟨2, ![M, N]⟩ : Shape) .f32 0x00000000#32) (ix2 p q)
      = ∑ k : Fin K, a (ix2 p k) * b (ix2 q k) := by
  simp only [matmul]
  rw [Ideal.matmul_constant_zero_apply]
  exact sum_eq M K N a b p q

end Cert.LibContractRhsT

end
-- ==== Proof.KernelPayloads.lean ====
import proofs.«158387_g42597485642290_cont_8to1_b_1741_4_alg».proof.Proof.Gen.KernelIdeal.Skeleton
import proofs.«158387_g42597485642290_cont_8to1_b_1741_4_alg».proof.Proof.GcnLayer
import proofs.«158387_g42597485642290_cont_8to1_b_1741_4_alg».proof.Proof.LibContract
import proofs.«158387_g42597485642290_cont_8to1_b_1741_4_alg».proof.Proof.LibContractRhsT
import Idealize.ShloMosaic.Lib.Pipeline.Value
import Idealize.ShloMosaic.Lib.ValueIdx

/-!
# The kernel body's two stored values, entry by entry, on the extended reals

The body stores two values. Into the carried scratch (at the grid's first point only) it stores the transformed
features: the product of the whole `seq` block with the whole `W` block, contracted over both operands' last axes,
into a zero accumulator, narrowed to bf16 — the narrowing is the identity on extended reals. Into the output block it
stores, for a 400-row block of the adjacency, the product of that block with the scratch into a zero accumulator, plus
the bias row broadcast down the rows, passed through the rectifier whose slope is the one entry of the `[1, 1]` block.
-/

noncomputable section

namespace Cert.KernelIdeal.Payloads

open Cert.KernelIdeal Cert.KernelIdeal.Gen Idealize.ShloMosaic Idealize.ShloMosaic.ValueIdx Cert.GcnLayer

/-- The first product's dimension numbers are those of `a · bᵀ`. -/
theorem dims_featT : dot_S10000x128_S128x128_S10000x128_1_1_0_0_n_n = DotDims.transposedRhs 10000 128 128 := rfl

/-- The second product's dimension numbers are those of the plain product. -/
theorem dims_aggP : dot_S400x10000_S10000x128_S400x128_1_0_0_1_n_n = DotDims.plain 400 10000 128 := rfl

/-- The value stored into the scratch, at entry `(r, q)`: the transformed feature of node `r` on channel `q`. -/
theorem pay1_apply (x0 : Vec Ideal S10000x128 .f32) (x2 : Vec Ideal S128x128 .f32) (r : Fin 10000) (q : Fin 128) :
    k0_pay1 (F := Ideal) x0 x2 (ix2 r q) = feat x0 x2 r q := by
  unfold k0_pay1
  rw [shapeCast_self, truncf_apply, dims_featT]
  exact Cert.LibContractRhsT.matmul_zero_apply 10000 128 128 none x0 x2 r q

/-- The bias row `[1, 128]` broadcast down 400 rows reads its column. -/
theorem biasRow_apply (x3 : FVec Ideal S1x128 .f32) (p : Fin 400) (q : Fin 128) :
    broadcastTo S400x128 (shapeCast S1x128 x3 shapeCasts_S1x128_S1x128) broadcasts_S1x128_S400x128 (ix2 p q)
      = x3 (ix2 0 q) := by
  rw [shapeCast_self]
  exact broadcastTo_apply x3 broadcasts_S1x128_S400x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The slope: the one entry of the `[1, 1]` block. -/
theorem slope_apply (x4 : FVec Ideal S1x1 .f32) : extractAt ![0, 0] x4 inpos_S1x1_p0_0 = x4 (ix2 0 0) := by
  unfold extractAt
  exact congrArg x4 (funext fun a => Fin.ext (by match a with | ⟨0, _⟩ => rfl | ⟨1, _⟩ => rfl))

/-- The value stored into the output block, at entry `(p, q)` of the block: the block's row `p` of the adjacency
    against column `q` of the scratch, plus the bias of channel `q`, through the rectifier. -/
theorem pay2_apply (x1 : Vec Ideal S400x10000 .f32) (xs : Vec Ideal S10000x128 .bf16) (x3 : Vec Ideal S1x128 .f32)
    (x4 : Vec Ideal S1x1 .f32) (p : Fin 400) (q : Fin 128) :
    k0_pay2 (F := Ideal) x1 xs x3 x4 (ix2 p q)
      = prelu (x4 (ix2 0 0)) ((∑ r : Fin 10000, x1 (ix2 p r) * xs (ix2 r q)) + x3 (ix2 0 q)) := by
  unfold k0_pay2
  have hmm : matmul (φ₁ := .bf16) (φ₂ := .bf16) dot_S400x10000_S10000x128_S400x128_1_0_0_1_n_n none
      (truncf .bf16 (x1 : FVec Ideal S400x10000 .f32) bitsLt_bf16_f32) (xs : FVec Ideal S10000x128 .bf16)
      (constant (F := Ideal) S400x128 .f32 0x00000000#32) (ix2 p q) = ∑ r : Fin 10000, x1 (ix2 p r) * xs (ix2 r q) := by
    rw [dims_aggP]
    exact Cert.LibDense.matmul_plain_zero_apply (φ₁ := .bf16) (φ₂ := .bf16) 400 10000 128 none
      (truncf .bf16 (x1 : FVec Ideal S400x10000 .f32) bitsLt_bf16_f32) (xs : FVec Ideal S10000x128 .bf16) p q
  simp only [select_apply, cmpf_apply, mulf_apply, addf_apply, broadcast_apply, hmm, biasRow_apply, slope_apply]
  rfl

end Cert.KernelIdeal.Payloads

end
-- ==== Proof.KernelLayer.lean ====
import proofs.«158387_g42597485642290_cont_8to1_b_1741_4_alg».proof.Proof.Gen.KernelIdeal.Value
import proofs.«158387_g42597485642290_cont_8to1_b_1741_4_alg».proof.Proof.KernelPieces
import proofs.«158387_g42597485642290_cont_8to1_b_1741_4_alg».proof.Proof.KernelPayloads
import proofs.«158387_g42597485642290_cont_8to1_b_1741_4_alg».proof.Proof.GcnLayer
import Idealize.ShloMosaic.Lib.Pipeline.Value
import Idealize.ShloMosaic.Lib.StableHlo.Run
import Idealize.ShloMosaic.Lib.ValueIdx
import Idealize.ShloMosaic.Lib.ValueLayout

/-!
# The kernel's result array is the layer

The grid has 25 points; point `t` is handed rows `400·t … 400·t + 399` of the adjacency and writes back rows
`400·t … 400·t + 399` of the result; the `seq`, `W`, bias and slope windows are the whole arrays at every point.

* The scratch is stored at point 0 only and never again, so after every point it holds the transformed features of
  the whole `seq` and `W` arrays (induction on the point).
* Hence at every point the output block is the body's second stored value of the point's adjacency rows, that scratch,
  the bias row and the slope — which, entry by entry, is the layer at row `400·t + p`.
* The 25 row blocks tile the result array (the block that holds row `r` is `r / 400`), so the array is the layer.
-/

set_option maxRecDepth 16384

noncomputable section

namespace Cert.KernelIdeal.LayerValue

open Cert.KernelIdeal Cert.KernelIdeal.Gen Cert.KernelIdeal.Value Cert.KernelIdeal.Pieces Cert.KernelIdeal.Payloads
open Cert.GcnLayer
open Idealize.ShloMosaic Idealize.ShloMosaic.TcCoe Idealize.ShloMosaic.ValueIdx Idealize.SL.Sem
open Idealize.ShloMosaic.Pipeline (Dat)

/-! ## Where each window's block sits, decided over the grid -/

/-- The adjacency and result windows move one block of rows per point; every other window stays at block `(0, 0)`. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section AnyInstance

variable {F : FTy → Type} [FloatOps F]
variable (m : (ℓ : Loc nD τ sig) → Buf (Elt F) ℓ)

/-- The blocks the body is handed at point `t`, and the two arrays whose windows are whole, at their literal types. -/
abbrev seqBlk (c : Dev nD) (t : Fin cfg0.N) : Vec F S10000x128 .f32 := iblk m c 0 t
abbrev adjBlk (c : Dev nD) (t : Fin cfg0.N) : Vec F S400x10000 .f32 := iblk m c 1 t
abbrev wBlk (c : Dev nD) (t : Fin cfg0.N) : Vec F S128x128 .f32 := iblk m c 2 t
abbrev biasBlk (c : Dev nD) (t : Fin cfg0.N) : Vec F S1x128 .f32 := iblk m c 3 t
abbrev slopeBlk (c : Dev nD) (t : Fin cfg0.N) : Vec F S1x1 .f32 := iblk m c 4 t
abbrev seqArr (c : Dev nD) : Vec F S10000x128 .f32 := V m c main_arg0
abbrev wArr (c : Dev nD) : Vec F S128x128 .f32 := V m c main_arg2

/-- The `seq` window's block is the whole array, at every point. -/
theorem seqBlk_eq (c : Dev nD) (t : Fin cfg0.N) : seqBlk m c t = seqArr m c := by
  obtain ⟨e0, e1, -⟩ := block_index t
  funext y
  show iblk m c 0 t y = V m c main_arg0 y
  unfold iblk
  rw [View.read_apply]
  show V m c main_arg0 (((cfg0.win 0).blk t).view.emb y) = V m c main_arg0 y
  refine congrArg (V m c main_arg0) (funext fun a => Fin.ext ?_)
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The `W` window's block is the whole array, at every point. -/
theorem wBlk_eq (c : Dev nD) (t : Fin cfg0.N) : wBlk m c t = wArr m c := by
  obtain ⟨-, -, -, -, e0, e1, -⟩ := block_index t
  funext y
  show iblk m c 2 t y = V m c main_arg2 y
  unfold iblk
  rw [View.read_apply]
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- THE CARRIED SCRATCH after any point: the value stored at point 0, of the whole `seq` and `W` arrays. Later
    points leave it as they found it. -/
theorem scratch_eq (c : Dev nD) : ∀ (n : ℕ) (hn : n < cfg0.N), (outsAt0 m c n hn).2 = k0_pay1 (seqArr m c) (wArr m c)
  | 0, h => by
    rw [outsAt0_A m c ⟨0, h⟩ rfl]
    dsimp only
    rw [scratch_first]
    show k0_pay1 (seqBlk m c ⟨0, h⟩) (wBlk m c ⟨0, h⟩) = _
    rw [seqBlk_eq, wBlk_eq]
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n _

/-- THE OUTPUT BLOCK after point `t`: the body's second stored value, of the point's adjacency rows, the carried
    scratch, the bias row and the slope. -/
theorem out_eq (c : Dev nD) (t : Fin cfg0.N) :
    (outsAt0 m c t.val t.isLt).1
      = k0_pay2 (adjBlk m c t) (k0_pay1 (seqArr m c) (wArr m c)) (biasBlk m c t) (slopeBlk m c t) := by
  by_cases h0 : t.val % 25 = 0
  · rw [outsAt0_A m c t h0]
    dsimp only
    rw [out_first]
    show k0_pay2 (adjBlk m c t) (k0_pay1 (seqBlk m c t) (wBlk m c t)) (biasBlk m c t) (slopeBlk m c t) = _
    rw [seqBlk_eq, wBlk_eq]
  · rw [outsAt0_B m c t h0]
    dsimp only
    rw [out_later, scratch_eq]

end AnyInstance

section AtIdeal

variable (m : (ℓ : Loc nD τ sig) → Buf (Elt Ideal) ℓ) (ρ : Dev nD → PrngReg)

/-- The layer of the five argument arrays as launched. -/
abbrev result (c : Dev nD) : Buf (Elt Ideal) ((c : Thread nD τ).loc main_v2) :=
  layer (m ((c : Thread nD τ).loc main_arg0)) (m ((c : Thread nD τ).loc main_arg1)) (m ((c : Thread nD τ).loc main_arg2))
    (m ((c : Thread nD τ).loc main_arg3)) (m ((c : Thread nD τ).loc main_arg4))

/-- The array row `400·t + p` that entry `p` of point `t`'s row block is. -/
def row (t : Fin cfg0.N) (p : Fin 400) : Fin 10000 :=
  ⟨400 * t.val + p.val, by have h1 : t.val < 25 := lt_of_lt_of_eq t.isLt N_0; have h2 := p.isLt; omega⟩

/-- Before the region the bias vector is laid as one row … -/
theorem biasArr_eq (c : Dev nD) :
    (V m c main_v0 : S1x128.Idx → EReal) = shapeCast S1x128 (m ((c : Thread nD τ).loc main_arg3)) shapeCasts_S128_S1x128 := by
  dsimp only [Gen.V, Gen.hostOps0]; after_results; rfl

/-- … and the slope as a `[1, 1]` array. -/
theorem slopeArr_eq (c : Dev nD) :
    (V m c main_v1 : S1x1.Idx → EReal) = shapeCast S1x1 (m ((c : Thread nD τ).loc main_arg4)) shapeCasts_S_S1x1 := by
  dsimp only [Gen.V, Gen.hostOps0]; after_results; rfl

/-- Entry `(p, r)` of point `t`'s adjacency block is entry `(400·t + p, r)` of the adjacency. -/
theorem adjBlk_apply (c : Dev nD) (t : Fin cfg0.N) (p : Fin 400) (r : Fin 10000) :
    adjBlk m c t (ix2 p r) = m ((c : Thread nD τ).loc main_arg1) (ix2 (row t p) r) := by
  obtain ⟨-, -, e0, e1, -⟩ := block_index t
  show iblk m c 1 t (ix2 p r) = _
  unfold iblk
  rw [View.read_apply]
  show V m c main_arg1 (((cfg0.win 1).blk t).view.emb (ix2 p r)) = _
  rw [V_main_arg1]
  refine congrArg (m ((c : Thread nD τ).loc main_arg1)) (funext fun a => Fin.ext ?_)
  match a with
  | ⟨0, _⟩ => show win0_1.index t (0 : Fin 2) * 400 + 1 * p.val = 400 * t.val + p.val; rw [e0]; omega
  | ⟨1, _⟩ => show win0_1.index t (1 : Fin 2) * 10000 + 1 * r.val = r.val; rw [e1]; omega

/-- Entry `(0, q)` of the bias block is the bias of channel `q`. -/
theorem biasBlk_apply (c : Dev nD) (t : Fin cfg0.N) (q : Fin 128) :
    biasBlk m c t (ix2 0 q) = m ((c : Thread nD τ).loc main_arg3) (ix1 q) := by
  obtain ⟨-, -, -, -, -, -, e0, e1, -⟩ := block_index t
  show iblk m c 3 t (ix2 0 q) = _
  unfold iblk
  rw [View.read_apply]
  show V m c main_v0 (((cfg0.win 3).blk t).view.emb (ix2 0 q)) = _
  have he : ((cfg0.win 3).blk t).view.emb (ix2 (0 : Fin 1) q) = ix2 (0 : Fin 1) q := funext fun a => Fin.ext (by
    match a with
    | ⟨0, _⟩ => show win0_3.index t (0 : Fin 2) * 1 + 1 * 0 = 0; rw [e0]
    | ⟨1, _⟩ => show win0_3.index t (1 : Fin 2) * 128 + 1 * q.val = q.val; rw [e1]; omega)
  rw [he, biasArr_eq]
  exact shapeCast_a_1a_apply _ _ 0 q

/-- The one entry of the slope block is the slope. -/
theorem slopeBlk_apply (c : Dev nD) (t : Fin cfg0.N) :
    slopeBlk m c t (ix2 0 0) = m ((c : Thread nD τ).loc main_arg4) ix0 := by
  obtain ⟨-, -, -, -, -, -, -, -, e0, e1, -⟩ := block_index t
  show iblk m c 4 t (ix2 0 0) = _
  unfold iblk
  rw [View.read_apply]
  show V m c main_v1 (((cfg0.win 4).blk t).view.emb (ix2 0 0)) = _
  have he : ((cfg0.win 4).blk t).view.emb (ix2 (0 : Fin 1) (0 : Fin 1)) = ix2 (0 : Fin 1) (0 : Fin 1) := funext fun a => Fin.ext (by
    match a with
    | ⟨0, _⟩ => show win0_4.index t (0 : Fin 2) * 1 + 1 * 0 = 0; rw [e0]
    | ⟨1, _⟩ => show win0_4.index t (1 : Fin 2) * 1 + 1 * 0 = 0; rw [e1])
  rw [he, slopeArr_eq]
  exact shapeCast_apply _ _ _ _ (by
    rw [Shape.rowMajor_val_two]
    show (Shape.rowMajorPi _ _).val = _
    rw [Shape.rowMajorPi_zero]
    rfl)

/-- WHAT POINT `t` WRITES BACK is rows `400·t … 400·t + 399` of the layer. -/
theorem flushed_eq (c : Dev nD) (t : Fin cfg0.N) :
    (dats m 0 c).flushed 5 t = ((cfg0.win 5).blk t).view.read (Elt Ideal) (result m c) := by
  obtain ⟨-, -, -, -, -, -, -, -, -, -, e0, e1⟩ := block_index t
  rw [flushed5, out_eq]
  funext y
  obtain ⟨p, q, rfl⟩ : ∃ (p : Fin 400) (q : Fin 128), y = ix2 p q := ⟨y 0, y 1, eq_ix2 y⟩
  rw [View.read_apply]
  show k0_pay2 (adjBlk m c t) (k0_pay1 (seqArr m c) (wArr m c)) (biasBlk m c t) (slopeBlk m c t) (ix2 p q)
    = result m c (((cfg0.win 5).blk t).view.emb (ix2 p q))
  have he : ((cfg0.win 5).blk t).view.emb (ix2 p q) = ix2 (row t p) q := funext fun a => Fin.ext (by
    match a with
    | ⟨0, _⟩ => show win0_5.index t (0 : Fin 2) * 400 + 1 * p.val = 400 * t.val + p.val; rw [e0]; omega
    | ⟨1, _⟩ => show win0_5.index t (1 : Fin 2) * 128 + 1 * q.val = q.val; rw [e1]; omega)
  rw [he, pay2_apply, slopeBlk_apply, biasBlk_apply]
  show _ = prelu _ (agg _ _ _ _ (row t p) q)
  unfold agg
  refine congrArg (prelu _) (congrArg (· + _) (Finset.sum_congr rfl fun r _ => ?_))
  rw [adjBlk_apply, pay1_apply]
  show _ * feat (V m c main_arg0) (V m c main_arg2) r q = _
  rw [V_main_arg0, V_main_arg2]

/-- An index of the result array is in point `t`'s block iff each coordinate is in the block's range on its axis. -/
theorem mem_block (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v2).slice (win0_5.rect t)).set ↔ _
  rw [View.set_slice_whole, Rect.mem_set_unit]
  exact Iff.rfl

/-- The 25 row blocks tile the result array: row `r` is in block `r / 400`. -/
theorem covered (i : S10000x128.Idx) :
    ∃ t : Fin cfg0.N, (cfg0.win 5).flush t = true ∧ i ∈ ((cfg0.win 5).blk t).view.set := by
  have hN : cfg0.N = 25 := N_0
  have hi0 : (i 0).val < 10000 := (i 0).isLt
  have hi1 : (i 1).val < 128 := (i 1).isLt
  have ht : (i 0).val / 400 < cfg0.N := by rw [hN]; omega
  obtain ⟨-, -, -, -, -, -, -, -, -, -, e0, e1⟩ := block_index ⟨(i 0).val / 400, ht⟩
  refine ⟨⟨(i 0).val / 400, ht⟩, flush0_5 _, ?_⟩
  rw [mem_block]
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    rw [e0]; dsimp only; omega
  | ⟨1, _⟩ =>
    show win0_5.index ⟨(i 0).val / 400, ht⟩ (1 : Fin 2) * 128 ≤ (i 1).val ∧ (i 1).val < win0_5.index ⟨(i 0).val / 400, ht⟩ (1 : Fin 2) * 128 + 128
    rw [e1]; omega

/-- So the result array ends holding the layer. -/
theorem final (c : Dev nD) : (dats m 0 c).arrAt 5 cfg0.N = result m c :=
  (dats m 0 c).arrAt_eq_of_cover 5 (result m c) (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end AtIdeal

end Cert.KernelIdeal.LayerValue

end
-- ==== Proof.ReferenceLayer.lean ====
import proofs.«158387_g42597485642290_cont_8to1_b_1741_4_alg».proof.Proof.Gen.ReferenceIdeal.Read
import proofs.«158387_g42597485642290_cont_8to1_b_1741_4_alg».proof.Proof.GcnLayer

/-!
# The reference computes the layer

The reference transposes `W`, multiplies `seq` by the transpose, multiplies the adjacency by the result, adds the bias
broadcast down the rows, and selects between that sum and its multiple by the broadcast slope on the ordered comparison
with the zero splat. Read at an entry, the transpose turns the first product's right index `(k, q)` into `(q, k)` of
`W`, which is the layer's transformed feature; the rest is the layer's definition stage by stage.
-/

noncomputable section

namespace Cert.ReferenceIdeal.RefValue

open Cert.ReferenceIdeal Cert.ReferenceIdeal.Read Idealize.ShloMosaic Idealize.ShloMosaic.ValueIdx Cert.GcnLayer

/-- The first product at `(r, q)`: row `r` of `seq` against row `q` of `W`. -/
theorem features_apply (x0 : FVec Ideal S10000x128 .f32) (x2 : FVec Ideal S128x128 .f32) (r : Fin 10000) (q : Fin 128) :
    val_main_v1 (F := Ideal) x0 x2 (ix2 r q) = feat x0 x2 r q := by
  rw [val_main_v1_apply]
  unfold feat
  refine Finset.sum_congr rfl fun k _ => ?_
  rw [val_main_v0_apply]
  have e1 : lidx_main_v1 (ix2 r q) k = ix2 r k :=
    funext fun a => Fin.ext (by match a with | ⟨0, _⟩ => rfl | ⟨1, _⟩ => rfl)
  have e2 : idx_main_v0 (ridx_main_v1 (ix2 r q) k) = ix2 q k :=
    funext fun a => Fin.ext (by match a with | ⟨0, _⟩ => rfl | ⟨1, _⟩ => rfl)
  rw [e1, e2]

/-- The biased aggregation at `(p, q)`. -/
theorem aggregate_apply (x0 : FVec Ideal S10000x128 .f32) (x1 : FVec Ideal S10000x10000 .f32)
    (x2 : FVec Ideal S128x128 .f32) (x3 : FVec Ideal S128 .f32) (p : Fin 10000) (q : Fin 128) :
    val_main_v5 (F := Ideal) x0 x1 x2 x3 (ix2 p q) = agg x0 x1 x2 x3 p q := by
  rw [val_main_v5_apply, val_main_v2_apply, val_main_v4_apply, val_main_v3_apply]
  unfold agg
  refine congrArg₂ (· + ·) (Finset.sum_congr rfl fun k _ => ?_) ?_
  · have e1 : lidx_main_v2 (ix2 p q) k = ix2 p k :=
      funext fun a => Fin.ext (by match a with | ⟨0, _⟩ => rfl | ⟨1, _⟩ => rfl)
    have e2 : ridx_main_v2 (ix2 p q) k = ix2 k q :=
      funext fun a => Fin.ext (by match a with | ⟨0, _⟩ => rfl | ⟨1, _⟩ => rfl)
    rw [e1, e2, features_apply]
  · exact congrArg x3 (funext fun a => Fin.ext (by match a with | ⟨0, _⟩ => rfl))

/-- The reference's result array is the layer of its five arguments. -/
theorem result_eq_layer (x0 : FVec Ideal S10000x128 .f32) (x1 : FVec Ideal S10000x10000 .f32)
    (x2 : FVec Ideal S128x128 .f32) (x3 : FVec Ideal S128 .f32) (x4 : FVec Ideal S_ .f32) :
    val_main_v10 (F := Ideal) x0 x1 x2 x3 x4 = layer x0 x1 x2 x3 x4 := by
  funext i
  obtain ⟨p, q, rfl⟩ : ∃ (p : Fin 10000) (q : Fin 128), i = ix2 p q := ⟨i 0, i 1, eq_ix2 i⟩
  rw [layer_apply, val_main_v10_apply, val_main_v7_apply, val_main_v9_apply, val_main_v8_apply, val_main_v6_apply,
    val_main_cst_apply, aggregate_apply]
  rfl

end Cert.ReferenceIdeal.RefValue

end
-- ==== Proof.Claims.lean ====
import proofs.«158387_g42597485642290_cont_8to1_b_1741_4_alg».proof.Defs
import proofs.«158387_g42597485642290_cont_8to1_b_1741_4_alg».proof.Proof.Gen.Kernel.Frame
import proofs.«158387_g42597485642290_cont_8to1_b_1741_4_alg».proof.Proof.Gen.KernelIdeal.Frame
import proofs.«158387_g42597485642290_cont_8to1_b_1741_4_alg».proof.Proof.Gen.ReferenceIdeal.Run
import proofs.«158387_g42597485642290_cont_8to1_b_1741_4_alg».proof.Proof.Gen.ReferenceIdeal.Read
import proofs.«158387_g42597485642290_cont_8to1_b_1741_4_alg».proof.Proof.Gen.Pre_finite_inputs
import proofs.«158387_g42597485642290_cont_8to1_b_1741_4_alg».proof.Proof.KernelLayer
import proofs.«158387_g42597485642290_cont_8to1_b_1741_4_alg».proof.Proof.ReferenceLayer

/-!
# The five claims

The kernel's two frames are the generated ones; the reference has no kernel, so its frame is its run with the result
forgotten. The idealization rewrote nothing. For the value claim both programs, run from memories that agree on the
five arguments, end with the result array at the graph-convolution layer of those arguments: the kernel by the
induction over its grid points and the tiling of the result by its 25 row blocks, the reference by reading its twelve
host operations at an entry.
-/

noncomputable section

namespace Cert.Proof.LayerClaims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result array ends at the layer of its arguments and the reference's at the
    layer of its own; the arguments agree, so the two arrays are equal entry by entry. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq_layer,
    (hagree c).1, (hagree c).2.1, (hagree c).2.2.1, (hagree c).2.2.2.1, (hagree c).2.2.2.2]

end Cert.Proof.LayerClaims

end
-- ==== Proof.lean ====
/-
  One graph-convolution layer with a parametric rectifier, `out = PReLU(adj · (seq · Wᵀ) + bias)`, as a single fused
  kernel against its jnp reference, over the extended reals.

  The kernel walks 25 blocks of 400 adjacency rows. At the first block it forms the transformed features `seq · Wᵀ`
  once, into a scratch it keeps for the whole walk (narrowed to bf16, which on extended reals changes nothing); at every
  block it multiplies the block's adjacency rows by that scratch, adds the bias row, applies the rectifier with the
  scalar slope, and writes the 400 result rows back. The reference forms the same two products in the same order on
  whole arrays, adds the broadcast bias and selects on the same ordered comparison with zero. Entry `(p, q)` of both is
  `s` where `s ≥ 0` and `a · s` elsewhere, with `s = ∑ r, adj[p, r] · (∑ k, seq[r, k] · W[q, k]) + bias[q]`: neither side
  re-associates a sum, so the equality needs no finiteness of the inputs.

  Modules: `GcnLayer` states that function; `KernelPayloads` reads the body's two stored values at an entry;
  `KernelPieces` reads what one run of the body leaves in the scratch and the output block; `KernelLayer` carries the
  scratch across the grid by induction and tiles the result array by the row blocks; `ReferenceLayer` reads the
  reference's operations at an entry; `Claims` assembles the five claims.
-/
import proofs.«158387_g42597485642290_cont_8to1_b_1741_4_alg».proof.Defs
import proofs.«158387_g42597485642290_cont_8to1_b_1741_4_alg».proof.Proof.Gen.Kernel
import proofs.«158387_g42597485642290_cont_8to1_b_1741_4_alg».proof.Proof.Gen.Kernel.Skeleton
import proofs.«158387_g42597485642290_cont_8to1_b_1741_4_alg».proof.Proof.Gen.Kernel.Launch
import proofs.«158387_g42597485642290_cont_8to1_b_1741_4_alg».proof.Proof.Gen.Kernel.Points
import proofs.«158387_g42597485642290_cont_8to1_b_1741_4_alg».proof.Proof.Gen.Kernel.Frame
import proofs.«158387_g42597485642290_cont_8to1_b_1741_4_alg».proof.Proof.Gen.KernelIdeal
import proofs.«158387_g42597485642290_cont_8to1_b_1741_4_alg».proof.Proof.Gen.KernelIdeal.Skeleton
import proofs.«158387_g42597485642290_cont_8to1_b_1741_4_alg».proof.Proof.Gen.KernelIdeal.Launch
import proofs.«158387_g42597485642290_cont_8to1_b_1741_4_alg».proof.Proof.Gen.KernelIdeal.Points
import proofs.«158387_g42597485642290_cont_8to1_b_1741_4_alg».proof.Proof.Gen.KernelIdeal.Frame
import proofs.«158387_g42597485642290_cont_8to1_b_1741_4_alg».proof.Proof.Gen.ReferenceIdeal
import proofs.«158387_g42597485642290_cont_8to1_b_1741_4_alg».proof.Proof.Gen.KernelIdeal.Value
import proofs.«158387_g42597485642290_cont_8to1_b_1741_4_alg».proof.Proof.Gen.ReferenceIdeal.Run
import proofs.«158387_g42597485642290_cont_8to1_b_1741_4_alg».proof.Proof.Gen.ReferenceIdeal.Read
import proofs.«158387_g42597485642290_cont_8to1_b_1741_4_alg».proof.Proof.Gen.Pre_finite_inputs
import proofs.«158387_g42597485642290_cont_8to1_b_1741_4_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    LayerClaims.frame_kernel, LayerClaims.frame_kernelIdeal, LayerClaims.frame_referenceIdeal, LayerClaims.preserves,
    LayerClaims.algebraic⟩

end Cert.Proof

end
